-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S2048x1024 : Shape := ⟨2, ![2048, 1024]⟩
abbrev S2048x1024x1 : Shape := ⟨3, ![2048, 1024, 1]⟩
abbrev S2048 : Shape := ⟨1, ![2048]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S2048x1024x1 : S_.BroadcastsInDim S2048x1024x1 (![] : Fin 0 → Fin S2048x1024x1.rank)
  reducesTo_S2048x1024x1_S_d0_1_2 : S2048x1024x1.ReducesTo [0, 1, 2] S_
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  main_v18

def fn {F : FTy → Type} [FloatOps F] (main_arg0 : FVec F S16384x1024 .f32) (main_arg1 : FVec F S2048x1024 .f32) (main_arg2 : FVec F S2048x1024x1 .f32) (main_arg3 : FVec F S2048 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048x1024x1 .f32 := Host.absf main_arg2
  let main_cst_2 : FVec F S_ .f32 := constant S_ .f32 0x7F800000#32
  let main_v10 : FVec F S2048x1024x1 .f32 := broadcastInDim S2048x1024x1 ![] bcast_S_S2048x1024x1 main_cst_2
  let main_v11 : IVec S2048x1024x1 1 := cmpf .olt main_v9 main_v10
  let main_c_3 : IVec S_ 1 := constantI S_ 1 1#1
  let main_v12 : IVec S_ 1 := (fun x v => Host.reduce IntOp.andi x v reducesTo_S2048x1024x1_S_d0_1_2 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_v13 main_v16
-- ==== Kernel.lean ====
abbrev S16384x1024 : Shape := ⟨2, ![16384, 1024]⟩
abbrev S2048x1024 : Shape := ⟨2, ![2048, 1024]⟩
abbrev S2048x1024x1 : Shape := ⟨3, ![2048, 1024, 1]⟩
abbrev S2048 : Shape := ⟨1, ![2048]⟩
abbrev S_ : Shape := ⟨0, ![]⟩
abbrev S1x2048 : Shape := ⟨2, ![1, 2048]⟩
abbrev S16384x2048 : Shape := ⟨2, ![16384, 2048]⟩
abbrev S1024x1024 : Shape := ⟨2, ![1024, 1024]⟩
abbrev S512x1024 : Shape := ⟨2, ![512, 1024]⟩
abbrev S1x512 : Shape := ⟨2, ![1, 512]⟩
abbrev S1024x512 : Shape := ⟨2, ![1024, 512]⟩

abbrev nBuf : Space → Nat
  | .hbm => 30
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S2048x1024, .f32⟩
  | .hbm, ⟨2, _⟩ => ⟨S2048x1024x1, .f32⟩
  | .hbm, ⟨3, _⟩ => ⟨S2048, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048, .f32⟩
  | .hbm, ⟨24, _⟩ => ⟨S1x2048, .f32⟩
  | .hbm, ⟨25, _⟩ => ⟨S2048, .f32⟩
  | .hbm, ⟨26, _⟩ => ⟨S1x2048, .f32⟩
  | .hbm, ⟨27, _⟩ => ⟨S2048x1024, .bf16⟩
  | .hbm, ⟨28, _⟩ => ⟨S2048x1024, .bf16⟩
  | .hbm, ⟨29, _⟩ => ⟨S16384x2048, .f32⟩
  | .local _ .vmem, ⟨0, _⟩ => ⟨S1024x1024, .f32⟩
  | .local _ .vmem, ⟨1, _⟩ => ⟨S1024x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S_S2048x1024 : S_.BroadcastsInDim S2048x1024 (![] : Fin 0 → Fin S2048x1024.rank)
  shapeCasts_S2048x1024x1_S2048x1024 : S2048x1024x1.ShapeCasts S2048x1024
  reducesTo_S2048x1024_S2048_d1 : S2048x1024.ReducesTo [1] S2048
  h_S_ : 0 < S_.numel
  shapeCasts_S2048_S1x2048 : S2048.ShapeCasts S1x2048
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  transposes_S512x1024_p1_0_S1024x512 : S512x1024.Transposes [1, 0] S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S2048x1024.size a
  hwx0_1 : ∀ i : grid0.Coords, EltTy.bits .bf16 = 32 ∨ (Rect.block (s := S2048x1024) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S2048x1024.size a
  hwx0_2 : ∀ i : grid0.Coords, EltTy.bits .bf16 = 32 ∨ (Rect.block (s := S2048x1024) S512x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x2048.size a
  hwx0_3 : ∀ i : grid0.Coords, EltTy.bits .f32 = 32 ∨ (Rect.block (s := S1x2048) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x2048.size a
  hwx0_4 : ∀ i : grid0.Coords, EltTy.bits .f32 = 32 ∨ (Rect.block (s := S1x2048) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S16384x2048.size a
  hwx0_5 : ∀ i : grid0.Coords, EltTy.bits .f32 = 32 ∨ (Rect.block (s := S16384x2048) S1024x512.size (cc0_transform_5 i) (hinb0_5 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v20) S1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S2048x1024 : Shape := ⟨2, ![2048, 1024]⟩
abbrev S2048x1024x1 : Shape := ⟨3, ![2048, 1024, 1]⟩
abbrev S2048 : Shape := ⟨1, ![2048]⟩
abbrev S_ : Shape := ⟨0, ![]⟩
abbrev S16384x2048 : Shape := ⟨2, ![16384, 2048]⟩
abbrev S1x2048 : Shape := ⟨2, ![1, 2048]⟩

abbrev nBuf : Space → Nat
  | .hbm => 40
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2048x1024, .f32⟩
  | .hbm, ⟨2, _⟩ => ⟨S2048x1024x1, .f32⟩
  | .hbm, ⟨3, _⟩ => ⟨S2048, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S16384x1024, .f32⟩
  | .hbm, ⟨20, _⟩ => ⟨S16384x2048, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048, .f32⟩
  | .hbm, ⟨25, _⟩ => ⟨S2048x1024, .f32⟩
  | .hbm, ⟨26, _⟩ => ⟨S16384x2048, .f32⟩
  | .hbm, ⟨27, _⟩ => ⟨S2048, .f32⟩
  | .hbm, ⟨28, _⟩ => ⟨S16384x2048, .f32⟩
  | .hbm, ⟨29, _⟩ => ⟨S1x2048, .f32⟩
  | .hbm, ⟨30, _⟩ => ⟨S16384x2048, .f32⟩
  | .hbm, ⟨31, _⟩ => ⟨S16384x2048, .f32⟩
  | .hbm, ⟨32, _⟩ => ⟨S_, .f32⟩
  | .hbm, ⟨33, _⟩ => ⟨S16384x2048, .f32⟩
  | .hbm, ⟨34, _⟩ => ⟨S16384x2048, .f32⟩
  | .hbm, ⟨35, _⟩ => ⟨S16384x2048, .f32⟩
  | .hbm, ⟨36, _⟩ => ⟨S16384x2048, .f32⟩
  | .hbm, ⟨37, _⟩ => ⟨S1x2048, .f32⟩
  | .hbm, ⟨38, _⟩ => ⟨S16384x2048, .f32⟩
  | .hbm, ⟨39, _⟩ => ⟨S16384x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]

class Facts₀ : Prop where
  bcast_S_S2048x1024 : S_.BroadcastsInDim S2048x1024 (![] : Fin 0 → Fin S2048x1024.rank)
  shapeCasts_S2048x1024x1_S2048x1024 : S2048x1024x1.ShapeCasts S2048x1024
  reducesTo_S2048x1024_S2048_d1 : S2048x1024.ReducesTo [1] S2048
  h_S_ : 0 < S_.numel
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  bcast_S_S16384x2048 : S_.BroadcastsInDim S16384x2048 (![] : Fin 0 → Fin S16384x2048.rank)
  dot_S16384x1024_S2048x1024_S16384x2048_1_1_0_0_n_n_wf : DotDims.WF S16384x1024 S2048x1024 S16384x2048 [1] [1] [0] [0] [] []

variable [Facts₀]

def dot_S16384x1024_S2048x1024_S16384x2048_1_1_0_0_n_n : DotDims S16384x1024 S2048x1024 S16384x2048 where
  lhsContracting := [1]
  rhsContracting := [1]
  lhsNonContracting := [0]
  rhsNonContracting := [0]
  lhsBatch := []
  rhsBatch := []
  wf := dot_S16384x1024_S2048x1024_S16384x2048_1_1_0_0_n_n_wf

class Facts : Prop extends Facts₀ where

variable [Facts]
-- ==== Proof.TileContract.lean ====
/-
  One output tile of the diagonal-Gaussian response, entry by entry, at the extended reals.

  A grid point holds a tile `z` of 1024 sample rows (1024 features each), the matching tiles `d` and `dm` of
  512 parameter rows (the clamped diagonal and the diagonal times the mean), and the two row vectors `q`
  (the mean's own quadratic form) and `s` (the clamped scale) cut to those 512 units.  Entry (p, u) of what it
  stores is

      s u · exp ( ((0 − Σₖ z(p,k)·z(p,k)·d(u,k)) − q u) + 2 · Σₖ z(p,k)·dm(u,k) ),

  the two sums being the two matrix products of the body: each contracts the feature axis of the sample tile
  against the feature axis of a parameter tile, the parameter tile being transposed first so that the product is
  an ordinary rows-by-columns one.  A change of float format is the identity here, so the half-width copies of
  the operands are the operands.
-/
import proofs.«149235_j80642305950189_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Tile

open Cert.KernelIdeal Cert.KernelIdeal.Gen Idealize.ShloMosaic Idealize.ShloMosaic.ValueIdx

/-! ## The tile's contraction: which operand entries meet at output entry `i` and contraction position `q` -/

/-- The left operand's row is the output's row. -/
theorem lhs_row (i : S1024x512.Idx) (q : dot_S1024x1024_S1024x512_S1024x512_1_0_0_1_n_n.contr.Idx) :
    (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
/-- The left operand's column is the contraction position. -/
theorem lhs_feat (i : S1024x512.Idx) (q : dot_S1024x1024_S1024x512_S1024x512_1_0_0_1_n_n.contr.Idx) :
    (dot_S1024x1024_S1024x512_S1024x512_1_0_0_1_n_n.lhsIdx i q 1).val = (q ⟨0, by decide⟩).val :=
  dot_S1024x1024_S1024x512_S1024x512_1_0_0_1_n_n.lhsIdx_val_of_single rfl i q
/-- The right operand's row is the contraction position. -/
theorem rhs_feat (i : S1024x512.Idx) (q : dot_S1024x1024_S1024x512_S1024x512_1_0_0_1_n_n.contr.Idx) :
    (dot_S1024x1024_S1024x512_S1024x512_1_0_0_1_n_n.rhsIdx i q 0).val = (q ⟨0, by decide⟩).val :=
  dot_S1024x1024_S1024x512_S1024x512_1_0_0_1_n_n.rhsIdx_val_of_single rfl i q
/-- The right operand's column is the output's column. -/
theorem rhs_col (i : S1024x512.Idx) (q : dot_S1024x1024_S1024x512_S1024x512_1_0_0_1_n_n.contr.Idx) :
    (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

/-- A sample tile times a TRANSPOSED parameter tile, into a zero accumulator, read at (p, u): the sum over the
    feature axis of the products of row `p` of the one with row `u` of the other. -/
theorem contract_apply (a : FVec Ideal S1024x1024 .bf16) (b : FVec Ideal S512x1024 .bf16) (p : Fin 1024) (u : Fin 512) :
    matmul dot_S1024x1024_S1024x512_S1024x512_1_0_0_1_n_n none a (transpose S1024x512 [1, 0] b transposes_S512x1024_p1_0_S1024x512)
        (constant S1024x512 .f32 0x00000000#32) (ix2 p u)
      = ∑ k : Fin 1024, a (ix2 p k) * b (ix2 u k) := by
  simp only [matmul]
  rw [Ideal.matmul_constant_zero_apply, ← Equiv.sum_comp (contrEquiv1 dot_S1024x1024_S1024x512_S1024x512_1_0_0_1_n_n 1024 rfl rfl).symm]
  refine Finset.sum_congr rfl fun k _ => ?_
  have hk := contrEquiv1_symm_val dot_S1024x1024_S1024x512_S1024x512_1_0_0_1_n_n 1024 rfl rfl k
  have el : dot_S1024x1024_S1024x512_S1024x512_1_0_0_1_n_n.lhsIdx (ix2 p u) ((contrEquiv1 dot_S1024x1024_S1024x512_S1024x512_1_0_0_1_n_n 1024 rfl rfl).symm k) = ix2 p k := funext fun c => Fin.ext (by
    match c with
    | ⟨0, _⟩ => exact lhs_row _ _
    | ⟨1, _⟩ => exact (lhs_feat _ _).trans hk)
  have er : dot_S1024x1024_S1024x512_S1024x512_1_0_0_1_n_n.rhsIdx (ix2 p u) ((contrEquiv1 dot_S1024x1024_S1024x512_S1024x512_1_0_0_1_n_n 1024 rfl rfl).symm k) = ix2 k u := funext fun c => Fin.ext (by
    match c with
    | ⟨0, _⟩ => exact (rhs_feat _ _).trans hk
    | ⟨1, _⟩ => exact rhs_col _ _)
  rw [el, er, transpose_ix2_apply]

end Cert.KernelIdeal.Tile

end
-- ==== Proof.TileEntry.lean ====
/-
  The tile's stored value at entry (p, u), as a formula in the five blocks the body loads.

  The body's operations are entrywise except for the two matrix products (read as sums in the module this one
  imports) and the two broadcasts of a one-row vector down the tile's rows; the shape casts in it change
  nothing.  So the entry is the product of the scale at column `u` with the exponential of
  ((0 − first sum) − q u) + 2 · second sum.
-/
import proofs.«149235_j80642305950189_1_alg».proof.Proof.TileContract

noncomputable section

namespace Cert.KernelIdeal.Tile

open Cert.KernelIdeal Cert.KernelIdeal.Gen Idealize.ShloMosaic Idealize.ShloMosaic.ValueIdx

/-- Entry (p, u) of the tile the body stores, from the sample tile `z`, the parameter tiles `d` and `dm` and the
    row vectors `q` and `s`. -/
theorem stored_apply (z : Vec Ideal S1024x1024 .f32) (d dm : Vec Ideal S512x1024 .bf16) (q s : Vec Ideal S1x512 .f32)
    (p : Fin 1024) (u : Fin 512) :
    k0_pay1 (F := Ideal) z d dm q s (ix2 p u)
      = s (ix2 (0 : Fin 1) u)
          * Ideal.exp (((Ideal.ofBits .f32 0x00000000#32 - ∑ k : Fin 1024, (z (ix2 p k) * z (ix2 p k)) * d (ix2 u k))
                - q (ix2 (0 : Fin 1) u))
              + Ideal.ofBits .f32 0x40000000#32 * ∑ k : Fin 1024, z (ix2 p k) * dm (ix2 u k)) := by
  unfold k0_pay1
  simp only [shapeCast_self]
  show broadcastTo S1024x512 s broadcasts_S1x512_S1024x512 (ix2 p u)
      * Ideal.exp (((Ideal.ofBits .f32 0x00000000#32
            - matmul (F := Ideal) dot_S1024x1024_S1024x512_S1024x512_1_0_0_1_n_n none (truncf (F := Ideal) .bf16 (mulf (F := Ideal) z z) bitsLt_bf16_f32)
                (transpose S1024x512 [1, 0] d transposes_S512x1024_p1_0_S1024x512) (constant (F := Ideal) S1024x512 .f32 0x00000000#32) (ix2 p u))
          - broadcastTo S1024x512 q broadcasts_S1x512_S1024x512 (ix2 p u))
        + Ideal.ofBits .f32 0x40000000#32
            * matmul (F := Ideal) dot_S1024x1024_S1024x512_S1024x512_1_0_0_1_n_n none (truncf (F := Ideal) .bf16 z bitsLt_bf16_f32)
                (transpose S1024x512 [1, 0] dm transposes_S512x1024_p1_0_S1024x512) (constant (F := Ideal) S1024x512 .f32 0x00000000#32) (ix2 p u)) = _
  rw [contract_apply, contract_apply, broadcastTo_1b_ab_apply, broadcastTo_1b_ab_apply]
  rfl

end Cert.KernelIdeal.Tile

end
-- ==== Proof.WholeResponse.lean ====
/-
  From tiles to the whole result.

  The grid is 16 × 4: point (a, b) takes sample rows 1024·a … 1024·a + 1023 and units 512·b … 512·b + 511, so the
  sample tile moves with the output tile's row block, the two parameter tiles and the two row vectors with its
  column block, and the 64 output tiles tile the 16384 × 2048 result exactly.  Hence the result array, after the
  run, is ONE function of the five arrays the region is launched on: entry (r, v) is

      s v · exp ( ((0 − Σₖ z(r,k)·z(r,k)·d(v,k)) − q v) + 2 · Σₖ z(r,k)·dm(v,k) ).
-/
import proofs.«149235_j80642305950189_1_alg».proof.Proof.Gen.KernelIdeal.Value
import proofs.«149235_j80642305950189_1_alg».proof.Proof.TileEntry

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

/-- The response of sample row `r` at unit `v`, from the sample array `Z`, the two parameter arrays `Dg` and `DM`
    and the two one-row arrays `Q` and `Sc`. -/
def responseAt (Z : S16384x1024.Idx → EReal) (Dg DM : S2048x1024.Idx → EReal) (Q Sc : S1x2048.Idx → EReal)
    (r : Fin 16384) (v : Fin 2048) : EReal :=
  Sc (ix2 (0 : Fin 1) v)
    * Ideal.exp (((Ideal.ofBits .f32 0x00000000#32 - ∑ k : Fin 1024, (Z (ix2 r k) * Z (ix2 r k)) * Dg (ix2 v k))
          - Q (ix2 (0 : Fin 1) v))
        + Ideal.ofBits .f32 0x40000000#32 * ∑ k : Fin 1024, Z (ix2 r k) * DM (ix2 v k))

/-- The whole result array. -/
def response (Z : S16384x1024.Idx → EReal) (Dg DM : S2048x1024.Idx → EReal) (Q Sc : S1x2048.Idx → EReal) :
    S16384x2048.Idx → EReal :=
  fun i => responseAt Z Dg DM Q Sc (i 0) (i 1)

/-- A tile whose loaded blocks are the arrays' entries at the rows and units an embedding `e` of the tile into the
    result names stores the response at `e`'s entries. -/
theorem stored_eq_response (Z : S16384x1024.Idx → EReal) (Dg DM : S2048x1024.Idx → EReal) (Q Sc : S1x2048.Idx → EReal)
    (z : Vec Ideal S1024x1024 .f32) (d dm : Vec Ideal S512x1024 .bf16) (q s : Vec Ideal S1x512 .f32)
    (e : S1024x512.Idx → S16384x2048.Idx)
    (hz : ∀ (p : Fin 1024) (u : Fin 512) (k : Fin 1024), z (ix2 p k) = Z (ix2 (e (ix2 p u) 0) k))
    (hd : ∀ (p : Fin 1024) (u : Fin 512) (k : Fin 1024), d (ix2 u k) = Dg (ix2 (e (ix2 p u) 1) k))
    (hdm : ∀ (p : Fin 1024) (u : Fin 512) (k : Fin 1024), dm (ix2 u k) = DM (ix2 (e (ix2 p u) 1) k))
    (hq : ∀ (p : Fin 1024) (u : Fin 512), q (ix2 (0 : Fin 1) u) = Q (ix2 (0 : Fin 1) (e (ix2 p u) 1)))
    (hs : ∀ (p : Fin 1024) (u : Fin 512), s (ix2 (0 : Fin 1) u) = Sc (ix2 (0 : Fin 1) (e (ix2 p u) 1))) :
    k0_pay1 (F := Ideal) z d dm q s = fun y => response Z Dg DM Q Sc (e y) := by
  funext y
  obtain ⟨p, u, rfl⟩ : ∃ (p : Fin 1024) (u : Fin 512), y = ix2 p u := ⟨y 0, y 1, eq_ix2 y⟩
  rw [Tile.stored_apply]
  unfold response responseAt
  rw [hq p u, hs p u]
  simp only [hz p u, hd p u, hdm p u]

end Cert.KernelIdeal.Whole

end
-- ==== Proof.ResultArray.lean ====
/-
  The result array after the run is the response of the five arrays the region is launched on.

  What a grid point writes back is its tile of the response (the loaded blocks are the arrays' entries at the
  tile's rows and units: each window's block index is the output tile's row block or column block, or zero on an
  axis the block spans whole), every tile is some point's, and the tiles cover the result.
-/
import proofs.«149235_j80642305950189_1_alg».proof.Proof.WholeResponse

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- How the windows move over the grid (decided over its 64 points): the sample window follows the output's row
    block, the parameter windows and the row-vector windows its column block, and the other axis of each stays at
    block 0; the output's block indices stay below 16 and 4. -/
theorem tile_motion : ∀ t : Fin cfg0.N,
    win0_0.index t (0 : Fin 2) = win0_5.index t (0 : Fin 2) ∧ win0_0.index t (1 : Fin 2) = 0
    ∧ win0_1.index t (0 : Fin 2) = win0_5.index t (1 : Fin 2) ∧ win0_1.index t (1 : Fin 2) = 0
    ∧ win0_2.index t (0 : Fin 2) = win0_5.index t (1 : Fin 2) ∧ win0_2.index t (1 : Fin 2) = 0
    ∧ win0_3.index t (0 : Fin 2) = 0 ∧ win0_3.index t (1 : Fin 2) = win0_5.index t (1 : Fin 2)
    ∧ win0_4.index t (0 : Fin 2) = 0 ∧ win0_4.index t (1 : Fin 2) = win0_5.index t (1 : Fin 2)
    ∧ win0_5.index t (0 : Fin 2) ≤ 15 ∧ win0_5.index t (1 : Fin 2) ≤ 3 :=
  (by decide +kernel : ∀ t : Fin grid0.N, _)

/-- Every one of the 16 × 4 output tiles is some grid point's. -/
theorem every_tile : ∀ (a : Fin 16) (b : Fin 4), ∃ t : Fin cfg0.N, win0_5.index t = ![a.val, b.val] :=
  (by decide +kernel : ∀ (a : Fin 16) (b : Fin 4), ∃ t : Fin grid0.N, win0_5.index t = ![a.val, b.val])

/-- WHAT POINT `t` WRITES BACK is tile `t` of the response of the arrays as the region finds them. -/
theorem flushed_eq (c : Dev nD) (t : Fin cfg0.N) :
    (dats m 0 c).flushed 5 t = ((cfg0.win 5).blk t).view.read (Elt Ideal)
      (response (V m c main_arg0) (V m c main_v18) (V m c main_v19) (V m c main_v15) (V m c main_v17)) := by
  rw [Value.flushed5]
  unfold out0_5
  rw [View.canon_unit_zero origin]
  simp only [View.ld_unit_zero (S := S1024x1024) origin, View.ld_unit_zero (S := S512x1024) origin,
    View.ld_unit_zero (S := S1x512) origin]
  obtain ⟨e00, e01, e10, e11, e20, e21, e30, e31, e40, e41, b0, b1⟩ := tile_motion t
  exact stored_eq_response (V m c main_arg0) (V m c main_v18) (V m c main_v19) (V m c main_v15) (V m c main_v17)
    (iblk m c 0 t) (iblk m c 1 t) (iblk m c 2 t) (iblk m c 3 t) (iblk m c 4 t) (((cfg0.win 5).blk t).view.emb)
    (fun p u k => by
      show V m c main_arg0 (((cfg0.win 0).blk t).view.emb (ix2 p k))
        = V m c main_arg0 (ix2 ((((cfg0.win 5).blk t).view.emb (ix2 p u)) 0) k)
      refine congrArg (V m c main_arg0) (funext fun a => Fin.ext ?_)
      match a with
      | ⟨0, _⟩ => show win0_0.index t (0 : Fin 2) * 1024 + 1 * p.val = win0_5.index t (0 : Fin 2) * 1024 + 1 * p.val; omega
      | ⟨1, _⟩ => show win0_0.index t (1 : Fin 2) * 1024 + 1 * k.val = k.val; omega)
    (fun p u k => by
      show V m c main_v18 (((cfg0.win 1).blk t).view.emb (ix2 u k))
        = V m c main_v18 (ix2 ((((cfg0.win 5).blk t).view.emb (ix2 p u)) 1) k)
      refine congrArg (V m c main_v18) (funext fun a => Fin.ext ?_)
      match a with
      | ⟨0, _⟩ => show win0_1.index t (0 : Fin 2) * 512 + 1 * u.val = win0_5.index t (1 : Fin 2) * 512 + 1 * u.val; omega
      | ⟨1, _⟩ => show win0_1.index t (1 : Fin 2) * 1024 + 1 * k.val = k.val; omega)
    (fun p u k => by
      show V m c main_v19 (((cfg0.win 2).blk t).view.emb (ix2 u k))
        = V m c main_v19 (ix2 ((((cfg0.win 5).blk t).view.emb (ix2 p u)) 1) k)
      refine congrArg (V m c main_v19) (funext fun a => Fin.ext ?_)
      match a with
      | ⟨0, _⟩ => show win0_2.index t (0 : Fin 2) * 512 + 1 * u.val = win0_5.index t (1 : Fin 2) * 512 + 1 * u.val; omega
      | ⟨1, _⟩ => show win0_2.index t (1 : Fin 2) * 1024 + 1 * k.val = k.val; omega)
    (fun p u => by
      show V m c main_v15 (((cfg0.win 3).blk t).view.emb (ix2 (0 : Fin 1) u))
        = V m c main_v15 (ix2 (0 : Fin 1) ((((cfg0.win 5).blk t).view.emb (ix2 p u)) 1))
      refine congrArg (V m c main_v15) (funext fun a => Fin.ext ?_)
      match a with
      | ⟨0, _⟩ => show win0_3.index t (0 : Fin 2) * 1 + 1 * 0 = 0; omega
      | ⟨1, _⟩ => show win0_3.index t (1 : Fin 2) * 512 + 1 * u.val = win0_5.index t (1 : Fin 2) * 512 + 1 * u.val; omega)
    (fun p u => by
      show V m c main_v17 (((cfg0.win 4).blk t).view.emb (ix2 (0 : Fin 1) u))
        = V m c main_v17 (ix2 (0 : Fin 1) ((((cfg0.win 5).blk t).view.emb (ix2 p u)) 1))
      refine congrArg (V m c main_v17) (funext fun a => Fin.ext ?_)
      match a with
      | ⟨0, _⟩ => show win0_4.index t (0 : Fin 2) * 1 + 1 * 0 = 0; omega
      | ⟨1, _⟩ => show win0_4.index t (1 : Fin 2) * 512 + 1 * u.val = win0_5.index t (1 : Fin 2) * 512 + 1 * u.val; omega)

/-- An entry of the result is in point `t`'s tile iff each coordinate is in the tile's range on its axis. -/
theorem mem_tile (t : Fin cfg0.N) (i : S16384x2048.Idx) :
    i ∈ ((cfg0.win 5).blk t).view.set ↔ ∀ a : Fin 2, win0_5.index t a * S1024x512.size a ≤ (i a).val ∧ (i a).val < win0_5.index t a * S1024x512.size a + S1024x512.size a := by
  show i ∈ ((View.whole main_v20).slice (win0_5.rect t)).set ↔ _
  rw [View.set_slice_whole, Rect.mem_set_unit]
  exact Iff.rfl

/-- Every entry of the result lies in the tile of the point whose block indices are the entry's row divided by 1024
    and its unit divided by 512. -/
theorem covered (i : S16384x2048.Idx) :
    ∃ t : Fin cfg0.N, (cfg0.win 5).flush t = true ∧ i ∈ ((cfg0.win 5).blk t).view.set := by
  have hi0 : (i 0).val < 16384 := (i 0).isLt
  have hi1 : (i 1).val < 2048 := (i 1).isLt
  obtain ⟨t, ht⟩ := every_tile ⟨(i 0).val / 1024, by omega⟩ ⟨(i 1).val / 512, by omega⟩
  have q0 : win0_5.index t (0 : Fin 2) = (i 0).val / 1024 := congrFun ht 0
  have q1 : win0_5.index t (1 : Fin 2) = (i 1).val / 512 := congrFun ht 1
  refine ⟨t, flush0_5 t, ?_⟩
  rw [mem_tile]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 512 ≤ (i 1).val ∧ (i 1).val < win0_5.index t (1 : Fin 2) * 512 + 512; omega

/-- THE RESULT ARRAY after the run. -/
theorem result_eq (c : Dev nD) :
    (dats m 0 c).arrAt 5 cfg0.N
      = response (V m c main_arg0) (V m c main_v18) (V m c main_v19) (V m c main_v15) (V m c main_v17) :=
  (dats m 0 c).arrAt_eq_of_cover 5 _ (fun t _ => flushed_eq m c t) covered

end Cert.KernelIdeal.Whole

end
-- ==== Proof.FoundArrays.lean ====
/-
  What the region finds in the four arrays the host prepares before it, written with the reference's own stages.

  Both programs prepare their parameters by the same operations on the same arguments: the clamped diagonal
  `d = 0.1 + 0.9 · 1/(1 + exp(−diag))`, the mean (the third argument with its unit axis dropped), `dm = d · mean`,
  `q = Σᵢ (d · mean) · mean` over the feature axis and `s = tanh(scale)`.  The kernel's program then narrows `d` and `dm`
  to half width, which changes nothing at the extended reals, and gives `q` and `s` a leading unit axis.
-/
import proofs.«149235_j80642305950189_1_alg».proof.Proof.Gen.KernelIdeal.Frame
import proofs.«149235_j80642305950189_1_alg».proof.Proof.Gen.ReferenceIdeal.Read
import Idealize.ShloMosaic.Lib.StableHlo.Run

noncomputable section

namespace Cert.KernelIdeal.Found

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The half-width diagonal the region reads is the reference's clamped diagonal of the second argument. -/
theorem diag (c : Dev nD) :
    (V m c main_v18 : S2048x1024.Idx → EReal)
      = Cert.ReferenceIdeal.Read.val_main_v9 (F := Ideal) (m ((c : Thread nD τ).loc main_arg1)) := by
  dsimp only [V, hostOps0]
  after_results
  rfl

/-- The half-width product the region reads is the reference's diagonal times mean. -/
theorem diagMean (c : Dev nD) :
    (V m c main_v19 : S2048x1024.Idx → EReal)
      = Cert.ReferenceIdeal.Read.val_main_v16 (F := Ideal) (m ((c : Thread nD τ).loc main_arg1)) (m ((c : Thread nD τ).loc main_arg2)) := by
  dsimp only [V, hostOps0]
  after_results
  rfl

/-- The one-row array of the mean's quadratic form is the reference's vector with a unit axis in front. -/
theorem meanForm (c : Dev nD) :
    (V m c main_v15 : S1x2048.Idx → EReal)
      = shapeCast S1x2048 (Cert.ReferenceIdeal.Read.val_main_v15 (F := Ideal) (m ((c : Thread nD τ).loc main_arg1)) (m ((c : Thread nD τ).loc main_arg2))) shapeCasts_S2048_S1x2048 := by
  dsimp only [V, hostOps0]
  after_results
  rfl

/-- The one-row array of the clamped scale likewise. -/
theorem scale (c : Dev nD) :
    (V m c main_v17 : S1x2048.Idx → EReal)
      = shapeCast S1x2048 (Cert.ReferenceIdeal.Read.val_main_v18 (F := Ideal) (m ((c : Thread nD τ).loc main_arg3))) shapeCasts_S2048_S1x2048 := by
  dsimp only [V, hostOps0]
  after_results
  rfl

end Cert.KernelIdeal.Found

end
-- ==== Proof.ReferenceEntry.lean ====
/-
  The reference's result at entry (r, v), at the extended reals, in terms of four of its own stages: the clamped
  diagonal `d` (stage 9), the diagonal times the mean `dm` (stage 16), the mean's own quadratic form `q` (stage 15, a
  vector over the units) and the clamped scale `s` (stage 18, likewise):

      s v · exp ( ((−Σₖ z(r,k)·z(r,k)·d(v,k)) − q v) + 2 · Σₖ z(r,k)·dm(v,k) ).

  The two einsums are sums over the feature axis, the two vectors reach the result through a broadcast along the
  rows, and everything else is entrywise.
-/
import proofs.«149235_j80642305950189_1_alg».proof.Proof.Gen.ReferenceIdeal.Read

noncomputable section

namespace Cert.ReferenceIdeal.Entry

open Cert.ReferenceIdeal Cert.ReferenceIdeal.Gen Cert.ReferenceIdeal.Read Idealize.ShloMosaic Idealize.ShloMosaic.ValueIdx

/-- Entry (r, v) of the reference's result. -/
theorem result_apply (x0 : (⟨S16384x1024, .f32⟩ : BufTy).Contents (Elt Ideal)) (x1 : (⟨S2048x1024, .f32⟩ : BufTy).Contents (Elt Ideal))
    (x2 : (⟨S2048x1024x1, .f32⟩ : BufTy).Contents (Elt Ideal)) (x3 : (⟨S2048, .f32⟩ : BufTy).Contents (Elt Ideal))
    (r : Fin 16384) (v : Fin 2048) :
    val_main_v29 (F := Ideal) x0 x1 x2 x3 (ix2 r v)
      = val_main_v18 (F := Ideal) x3 (ix1 v)
          * Ideal.exp (((-(∑ k : Fin 1024, (x0 (ix2 r k) * x0 (ix2 r k)) * val_main_v9 (F := Ideal) x1 (ix2 v k)))
                - val_main_v15 (F := Ideal) x1 x2 (ix1 v))
              + Ideal.ofBits .f32 0x40000000#32 * ∑ k : Fin 1024, x0 (ix2 r k) * val_main_v16 (F := Ideal) x1 x2 (ix2 v k)) := by
  have e1 : idx_main_v27 (idx_main_v28 (ix2 r v)) = ix1 v :=
    funext fun a => Fin.ext (by match a with | ⟨0, _⟩ => rfl)
  have e2 : idx_main_v20 (idx_main_v21 (ix2 r v)) = ix1 v :=
    funext fun a => Fin.ext (by match a with | ⟨0, _⟩ => rfl)
  have e3 : ∀ k : Fin 1024, lidx_main_v12 (ix2 r v) k = ix2 r k := fun k =>
    funext fun a => Fin.ext (by match a with | ⟨0, _⟩ => rfl | ⟨1, _⟩ => rfl)
  have e4 : ∀ k : Fin 1024, ridx_main_v12 (ix2 r v) k = ix2 v k := fun k =>
    funext fun a => Fin.ext (by match a with | ⟨0, _⟩ => rfl | ⟨1, _⟩ => rfl)
  have e5 : ∀ k : Fin 1024, lidx_main_v17 (ix2 r v) k = ix2 r k := fun k =>
    funext fun a => Fin.ext (by match a with | ⟨0, _⟩ => rfl | ⟨1, _⟩ => rfl)
  have e6 : ∀ k : Fin 1024, ridx_main_v17 (ix2 r v) k = ix2 v k := fun k =>
    funext fun a => Fin.ext (by match a with | ⟨0, _⟩ => rfl | ⟨1, _⟩ => rfl)
  rw [val_main_v29_apply, val_main_v28_apply, val_main_v27_apply, val_main_v26_apply, val_main_v25_apply,
    val_main_v22_apply, val_main_v19_apply, val_main_v12_apply, val_main_v21_apply, val_main_v20_apply,
    val_main_v24_apply, val_main_v23_apply, val_main_cst_4_apply, val_main_v17_apply, e1, e2]
  simp only [e3, e4, e5, e6, val_main_v11_apply]
  rfl

end Cert.ReferenceIdeal.Entry

end
-- ==== Proof.Agreement.lean ====
/-
  The two sides meet: the response of the reference's prepared parameters is the reference's result, entry by entry.

  At entry (r, v) both are  s v · exp(((∓Σₖ z(r,k)·z(r,k)·d(v,k)) − q v) + 2 · Σₖ z(r,k)·dm(v,k)):  the kernel subtracts
  the first sum from zero where the reference negates it (`0 − x = −x` on the extended reals, infinities included),
  and the kernel's one-row arrays are the reference's vectors with a unit axis in front.  No other law is used, so
  finiteness of the inputs is never needed.
-/
import proofs.«149235_j80642305950189_1_alg».proof.Proof.ResultArray
import proofs.«149235_j80642305950189_1_alg».proof.Proof.FoundArrays
import proofs.«149235_j80642305950189_1_alg».proof.Proof.ReferenceEntry

noncomputable section

namespace Cert.Agreement

open Idealize.ShloMosaic Idealize.ShloMosaic.TcCoe Idealize.SL.Sem Idealize.ShloMosaic.ValueIdx
open Cert.ReferenceIdeal.Read

/-- The response of the sample array and the reference's four prepared stages is the reference's result. -/
theorem response_eq_reference (x0 : Cert.KernelIdeal.S16384x1024.Idx → EReal) (x1 : Cert.KernelIdeal.S2048x1024.Idx → EReal)
    (x2 : Cert.KernelIdeal.S2048x1024x1.Idx → EReal) (x3 : Cert.KernelIdeal.S2048.Idx → EReal) :
    Cert.KernelIdeal.Whole.response x0 (val_main_v9 (F := Ideal) x1) (val_main_v16 (F := Ideal) x1 x2)
        (shapeCast Cert.KernelIdeal.S1x2048 (val_main_v15 (F := Ideal) x1 x2) Cert.KernelIdeal.Gen.shapeCasts_S2048_S1x2048)
        (shapeCast Cert.KernelIdeal.S1x2048 (val_main_v18 (F := Ideal) x3) Cert.KernelIdeal.Gen.shapeCasts_S2048_S1x2048)
      = val_main_v29 (F := Ideal) x0 x1 x2 x3 := by
  funext i
  obtain ⟨r, v, rfl⟩ : ∃ (r : Fin 16384) (v : Fin 2048), i = ix2 r v := ⟨i 0, i 1, eq_ix2 i⟩
  rw [Cert.ReferenceIdeal.Entry.result_apply]
  show Cert.KernelIdeal.Whole.responseAt x0 (val_main_v9 (F := Ideal) x1) (val_main_v16 (F := Ideal) x1 x2)
        (shapeCast Cert.KernelIdeal.S1x2048 (val_main_v15 (F := Ideal) x1 x2) Cert.KernelIdeal.Gen.shapeCasts_S2048_S1x2048)
        (shapeCast Cert.KernelIdeal.S1x2048 (val_main_v18 (F := Ideal) x3) Cert.KernelIdeal.Gen.shapeCasts_S2048_S1x2048) r v = _
  unfold Cert.KernelIdeal.Whole.responseAt
  rw [shapeCast_a_1a_apply, shapeCast_a_1a_apply, Ideal.ofBits_zero_f32, zero_sub]

/-- So the kernel program's result array, after its run, is the reference's result of the same arguments. -/
theorem result_eq_reference (m : (ℓ : Loc Cert.KernelIdeal.nD Cert.KernelIdeal.τ Cert.KernelIdeal.sig) → Buf (Elt Ideal) ℓ)
    (c : Dev Cert.KernelIdeal.nD) :
    (Cert.KernelIdeal.Gen.dats m 0 c).arrAt 5 Cert.KernelIdeal.cfg0.N
      = val_main_v29 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3)) := by
  rw [Cert.KernelIdeal.Whole.result_eq, Cert.KernelIdeal.Gen.V_main_arg0, Cert.KernelIdeal.Found.diag,
    Cert.KernelIdeal.Found.diagMean, Cert.KernelIdeal.Found.meanForm, Cert.KernelIdeal.Found.scale]
  exact response_eq_reference _ _ _ _

end Cert.Agreement

end
-- ==== Proof.lean ====
/-
  The certificate of the diagonal-Gaussian response kernel against its jnp reference.

  Both programs compute, for sample row r and unit v,

      tanh(scale v) · exp( −Σᵢ d(v,i)·z(r,i)² − Σᵢ d(v,i)·mean(v,i)² + 2·Σᵢ z(r,i)·d(v,i)·mean(v,i) ),   d = 0.1 + 0.9·sigmoid(diag),

  the kernel tile by tile on a 16 × 4 grid (1024 sample rows against 512 units per point, the two sums over the
  features as two matrix products on half-width copies of the operands), the reference with two einsums over the
  whole arrays.  At the extended reals a change of float format is the identity and a matrix product is the plain
  sum over the contraction index, so the two results are the same function of the arguments entry by entry; the
  only rewriting is `0 − x = −x`.  The three frames are the generated ones (the reference's is its generated run with
  the result dropped), and the idealization rewrote nothing, so there is nothing to preserve.
-/
import proofs.«149235_j80642305950189_1_alg».proof.Defs
import proofs.«149235_j80642305950189_1_alg».proof.Proof.Gen.Kernel
import proofs.«149235_j80642305950189_1_alg».proof.Proof.Gen.Kernel.Skeleton
import proofs.«149235_j80642305950189_1_alg».proof.Proof.Gen.Kernel.Launch
import proofs.«149235_j80642305950189_1_alg».proof.Proof.Gen.Kernel.Points
import proofs.«149235_j80642305950189_1_alg».proof.Proof.Gen.Kernel.Frame
import proofs.«149235_j80642305950189_1_alg».proof.Proof.Gen.KernelIdeal
import proofs.«149235_j80642305950189_1_alg».proof.Proof.Gen.KernelIdeal.Skeleton
import proofs.«149235_j80642305950189_1_alg».proof.Proof.Gen.KernelIdeal.Launch
import proofs.«149235_j80642305950189_1_alg».proof.Proof.Gen.KernelIdeal.Points
import proofs.«149235_j80642305950189_1_alg».proof.Proof.Gen.KernelIdeal.Frame
import proofs.«149235_j80642305950189_1_alg».proof.Proof.Gen.ReferenceIdeal
import proofs.«149235_j80642305950189_1_alg».proof.Proof.Gen.Pre_finite_inputs
import proofs.«149235_j80642305950189_1_alg».proof.Proof.Gen.KernelIdeal.Value
import proofs.«149235_j80642305950189_1_alg».proof.Proof.Gen.ReferenceIdeal.Run
import proofs.«149235_j80642305950189_1_alg».proof.Proof.Gen.ReferenceIdeal.Read
import proofs.«149235_j80642305950189_1_alg».proof.Proof.Agreement
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The kernel program's run ends with its result array at the reference's result of the same arguments (the tiles
    cover the result, each tile is the response of its blocks, and the response of the prepared parameters is the
    reference's term); the reference's run ends at that term of its own arguments, which agree. -/
theorem algebraic : Cert.algebraic_KernelIdeal_ReferenceIdeal := by
  intro m ρ m' ρ' _ hagree
  refine ⟨fun c => Cert.ReferenceIdeal.Read.val_main_v29 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.Agreement.result_eq_reference m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v29_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
